-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x32x64 : Shape := ⟨3, ![20000, 32, 64]⟩
abbrev S20000x32 : Shape := ⟨2, ![20000, 32]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x32x64 : S_.BroadcastsInDim S20000x32x64 (![] : Fin 0 → Fin S20000x32x64.rank)
  reducesTo_S20000x32x64_S_d0_1_2 : S20000x32x64.ReducesTo [0, 1, 2] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S20000x32 : S_.BroadcastsInDim S20000x32 (![] : Fin 0 → Fin S20000x32.rank)
  reducesTo_S20000x32_S_d0_1 : S20000x32.ReducesTo [0, 1] S_

variable [Facts]

def fn_part2 {F : FTy → Type} [FloatOps F] (main_arg2 : IVec S20000x32 32) (main_v32 : IVec S_ 1) (main_c_12 : IVec S_ 32) : IVec S_ 1 :=
  let main_v33 : IVec S20000x32 32 := broadcastInDim S20000x32 ![] bcast_S_S20000x32 main_c_12
  let main_v34 : IVec S20000x32 1 := cmpi .slt main_arg2 main_v33
  let main_c_13 : IVec S_ 1 := constantI S_ 1 1#1
  let main_v35 : IVec S_ 1 := (fun x v => Host.reduce IntOp.andi x v reducesTo_S20000x32_S_d0_1 h_S_) main_v34 main_c_13
  let main_v36 : IVec S_ 1 := andi main_v32 main_v35
  main_v36

def fn_part1 {F : FTy → Type} [FloatOps F] (main_arg2 : IVec S20000x32 32) (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 4294947296#32
  let main_v29 : IVec S20000x32 32 := broadcastInDim S20000x32 ![] bcast_S_S20000x32 main_c_10
  let main_v30 : IVec S20000x32 1 := cmpi .sge main_arg2 main_v29
  let main_c_11 : IVec S_ 1 := constantI S_ 1 1#1
  let main_v31 : IVec S_ 1 := (fun x v => Host.reduce IntOp.andi x v reducesTo_S20000x32_S_d0_1 h_S_) main_v30 main_c_11
  let main_v32 : IVec S_ 1 := andi main_v28 main_v31
  let main_c_12 : IVec S_ 32 := constantI S_ 32 20000#32
  fn_part2 (F := F) main_arg2 main_v32 main_c_12

def fn {F : FTy → Type} [FloatOps F] (main_arg0 : FVec F S20000x128 .f32) (main_arg1 : FVec F S20000x32x64 .f32) (main_arg2 : IVec S20000x32 32) (main_arg3 : FVec F S64x128 .f32) (main_arg4 : FVec F S128 .f32) (main_arg5 : FVec F S128x128 .f32) (main_arg6 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x32x64 .f32 := Host.absf main_arg1
  let main_cst_0 : FVec F S_ .f32 := constant S_ .f32 0x7F800000#32
  let main_v5 : FVec F S20000x32x64 .f32 := broadcastInDim S20000x32x64 ![] bcast_S_S20000x32x64 main_cst_0
  let main_v6 : IVec S20000x32x64 1 := cmpf .olt main_v4 main_v5
  let main_c_1 : IVec S_ 1 := constantI S_ 1 1#1
  let main_v7 : IVec S_ 1 := (fun x v => Host.reduce IntOp.andi x v reducesTo_S20000x32x64_S_d0_1_2 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_v13 main_v16
-- ==== Kernel.lean ====
abbrev S20000x128 : Shape := ⟨2, ![20000, 128]⟩
abbrev S20000x32x64 : Shape := ⟨3, ![20000, 32, 64]⟩
abbrev S20000x32 : Shape := ⟨2, ![20000, 32]⟩
abbrev S64x128 : Shape := ⟨2, ![64, 128]⟩
abbrev S128 : Shape := ⟨1, ![128]⟩
abbrev S128x128 : Shape := ⟨2, ![128, 128]⟩
abbrev S_ : Shape := ⟨0, ![]⟩
abbrev S20000x32x1 : Shape := ⟨3, ![20000, 32, 1]⟩
abbrev S1 : Shape := ⟨1, ![1]⟩
abbrev S1x1x1 : Shape := ⟨3, ![1, 1, 1]⟩
abbrev S20000x32x128 : Shape := ⟨3, ![20000, 32, 128]⟩
abbrev S200x32x64 : Shape := ⟨3, ![200, 32, 64]⟩
abbrev S200x32x128 : Shape := ⟨3, ![200, 32, 128]⟩
abbrev S200x128 : Shape := ⟨2, ![200, 128]⟩
abbrev S6400x64 : Shape := ⟨2, ![6400, 64]⟩
abbrev S6400x128 : Shape := ⟨2, ![6400, 128]⟩
abbrev S1x128 : Shape := ⟨2, ![1, 128]⟩

abbrev nBuf : Space → Nat
  | .hbm => 31
  | .vmem => 10
  | .smem => 0
  | _ => 0

abbrev bufTy : (tb : Table) → Fin (tcTables nBuf tb) → BufTy
  | .hbm, ⟨0, _⟩ => ⟨S20000x128, .f32⟩
  | .hbm, ⟨1, _⟩ => ⟨S20000x32x64, .f32⟩
  | .hbm, ⟨2, _⟩ => ⟨S20000x32, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S20000x32, .i32⟩
  | .hbm, ⟨9, _⟩ => ⟨S20000x32, .i1⟩
  | .hbm, ⟨10, _⟩ => ⟨S_, .i32⟩
  | .hbm, ⟨11, _⟩ => ⟨S20000x32, .i32⟩
  | .hbm, ⟨12, _⟩ => ⟨S20000x32, .i32⟩
  | .hbm, ⟨13, _⟩ => ⟨S20000x32, .i32⟩
  | .hbm, ⟨14, _⟩ => ⟨S20000x32x1, .i32⟩
  | .hbm, ⟨15, _⟩ => ⟨S1, .i32⟩
  | .hbm, ⟨16, _⟩ => ⟨S_, .i32⟩
  | .hbm, ⟨17, _⟩ => ⟨S20000x32x1, .i32⟩
  | .hbm, ⟨18, _⟩ => ⟨S20000x32x1, .i1⟩
  | .hbm, ⟨19, _⟩ => ⟨S1x1x1, .i32⟩
  | .hbm, ⟨20, _⟩ => ⟨S20000x32x1, .i32⟩
  | .hbm, ⟨21, _⟩ => ⟨S20000x32x1, .i1⟩
  | .hbm, ⟨22, _⟩ => ⟨S20000x32x1, .i1⟩
  | .hbm, ⟨23, _⟩ => ⟨S_, .i1⟩
  | .hbm, ⟨24, _⟩ => ⟨S20000x32, .i1⟩
  | .hbm, ⟨25, _⟩ => ⟨S20000x32x128, .f32⟩
  | .hbm, ⟨26, _⟩ => ⟨S20000x32x128, .i1⟩
  | .hbm, ⟨27, _⟩ => ⟨S_, .f32⟩
  | .hbm, ⟨28, _⟩ => ⟨S20000x32x128, .f32⟩
  | .hbm, ⟨29, _⟩ => ⟨S20000x32x128, .f32⟩
  | .hbm, ⟨30, _⟩ => ⟨S20000x128, .f32⟩
  | .local _ .vmem, ⟨0, _⟩ => ⟨S200x32x64, .f32⟩
  | .local _ .vmem, ⟨1, _⟩ => ⟨S200x32x64, .f32⟩
  | .local _ .vmem, ⟨2, _⟩ => ⟨S200x32x128, .f32⟩
  | .local _ .vmem, ⟨3, _⟩ => ⟨S200x32x128, .f32⟩
  | .local _ .vmem, ⟨4, _⟩ => ⟨S64x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S200x128, .f32⟩
  | .local _ .vmem, ⟨9, _⟩ => ⟨S200x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S20000x32 : S_.BroadcastsInDim S20000x32 (![] : Fin 0 → Fin S20000x32.rank)
  bcast_S20000x32_S20000x32x1_0_1 : S20000x32.BroadcastsInDim S20000x32x1 (![0, 1] : Fin 2 → Fin S20000x32x1.rank)
  bcast_S_S20000x32x1 : S_.BroadcastsInDim S20000x32x1 (![] : Fin 0 → Fin S20000x32x1.rank)
  bcast_S1_S1x1x1_2 : S1.BroadcastsInDim S1x1x1 (![2] : Fin 1 → Fin S1x1x1.rank)
  bcast_S1x1x1_S20000x32x1_0_1_2 : S1x1x1.BroadcastsInDim S20000x32x1 (![0, 1, 2] : Fin 3 → Fin S20000x32x1.rank)
  reducesTo_S20000x32x1_S20000x32_d2 : S20000x32x1.ReducesTo [2] S20000x32
  h_S_ : 0 < S_.numel
  bcast_S20000x32_S20000x32x128_0_1 : S20000x32.BroadcastsInDim S20000x32x128 (![0, 1] : Fin 2 → Fin S20000x32x128.rank)
  bcast_S_S20000x32x128 : S_.BroadcastsInDim S20000x32x128 (![] : Fin 0 → Fin S20000x32x128.rank)
  inb_S200x32x64_S200x32x64_0_0_0 : ∀ a, (![0, 0, 0] : Fin 3 → Nat) a + S200x32x64.size a ≤ S200x32x64.size a
  h_S200x32x64 : 0 < S200x32x64.numel
  shapeCasts_S200x32x64_S6400x64 : S200x32x64.ShapeCasts S6400x64
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  inb_S128x128_S128x128_0_0 : ∀ a, (![0, 0] : Fin 2 → Nat) a + S128x128.size a ≤ S128x128.size a
  h_S128x128 : 0 < S128x128.numel
  shapeCasts_S6400x128_S200x32x128 : S6400x128.ShapeCasts S200x32x128
  inb_S200x32x128_S200x32x128_0_0_0 : ∀ a, (![0, 0, 0] : Fin 3 → Nat) a + S200x32x128.size a ≤ S200x32x128.size a
  h_S200x32x128 : 0 < S200x32x128.numel
  shapeCasts_S200x32x128_S200x32x128 : S200x32x128.ShapeCasts S200x32x128
  reduces_S200x32x128_S200x128 : S200x32x128.Reduces [1] S200x128
  inb_S200x128_S200x128_0_0 : ∀ a, (![0, 0] : Fin 2 → Nat) a + S200x128.size a ≤ S200x128.size a
  h_S200x128 : 0 < S200x128.numel
  gather_S20000x128_S20000x32x1_S20000x32x128_2_0_n_n_0_2_1128_wf : GatherDims.WF S20000x128 S20000x32x1 S20000x32x128 [2] [0] [] [0] [] 2 ![1, 128]
  dot_S6400x64_S64x128_S6400x128_1_0_0_1_n_n_wf : DotDims.WF S6400x64 S64x128 S6400x128 [1] [0] [0] [1] [] []
  dot_S6400x128_S128x128_S6400x128_1_0_0_1_n_n_wf : DotDims.WF S6400x128 S128x128 S6400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x32x64.size a ≤ S20000x32x64.size a
  hwx0_0 : ∀ i : grid0.Coords, EltTy.bits .f32 = 32 ∨ (Rect.block (s := S20000x32x64) S200x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x32x128.size a ≤ S20000x32x128.size a
  hwx0_1 : ∀ i : grid0.Coords, EltTy.bits .f32 = 32 ∨ (Rect.block (s := S20000x32x128) S200x32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x128.size a ≤ S20000x128.size a
  hwx0_6 : ∀ i : grid0.Coords, EltTy.bits .f32 = 32 ∨ (Rect.block (s := S20000x128) S200x128.size (cc0_transform_6 i) (hinb0_6 i)).WholeWords (EltTy.packing .f32)

variable [Facts₀]

def gather_S20000x128_S20000x32x1_S20000x32x128_2_0_n_n_0_2_1128 : GatherDims S20000x128 S20000x32x1 S20000x32x128 where
  offsetDims := [2]
  collapsedSliceDims := [0]
  operandBatchingDims := []
  startIndicesBatchingDims := []
  startIndexMap := [0]
  indexVectorDim := 2
  sliceSizes := ![1, 128]
  wf := gather_S20000x128_S20000x32x1_S20000x32x128_2_0_n_n_0_2_1128_wf
def dot_S6400x64_S64x128_S6400x128_1_0_0_1_n_n : DotDims S6400x64 S64x128 S6400x128 where
  lhsContracting := [1]
  rhsContracting := [0]
  lhsNonContracting := [0]
  rhsNonContracting := [1]
  lhsBatch := []
  rhsBatch := []
  wf := dot_S6400x64_S64x128_S6400x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf

abbrev win0_0 : Pipeline.Window sig grid0 :=
  Pipeline.Window.ofSpec (Memref.whole main_arg1) S200x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S200x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S200x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S20000x128 : Shape := ⟨2, ![20000, 128]⟩
abbrev S20000x32x64 : Shape := ⟨3, ![20000, 32, 64]⟩
abbrev S20000x32 : Shape := ⟨2, ![20000, 32]⟩
abbrev S64x128 : Shape := ⟨2, ![64, 128]⟩
abbrev S128 : Shape := ⟨1, ![128]⟩
abbrev S128x128 : Shape := ⟨2, ![128, 128]⟩
abbrev S20000x32x128 : Shape := ⟨3, ![20000, 32, 128]⟩
abbrev S1x1x128 : Shape := ⟨3, ![1, 1, 128]⟩
abbrev S_ : Shape := ⟨0, ![]⟩
abbrev S20000x32x1 : Shape := ⟨3, ![20000, 32, 1]⟩

abbrev nBuf : Space → Nat
  | .hbm => 41
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S20000x32x64, .f32⟩
  | .hbm, ⟨2, _⟩ => ⟨S20000x32, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S20000x32x128, .f32⟩
  | .hbm, ⟨8, _⟩ => ⟨S1x1x128, .f32⟩
  | .hbm, ⟨9, _⟩ => ⟨S20000x32x128, .f32⟩
  | .hbm, ⟨10, _⟩ => ⟨S20000x32x128, .f32⟩
  | .hbm, ⟨11, _⟩ => ⟨S_, .f32⟩
  | .hbm, ⟨12, _⟩ => ⟨S20000x32x128, .f32⟩
  | .hbm, ⟨13, _⟩ => ⟨S20000x32x128, .f32⟩
  | .hbm, ⟨14, _⟩ => ⟨S20000x32x128, .f32⟩
  | .hbm, ⟨15, _⟩ => ⟨S20000x32x128, .f32⟩
  | .hbm, ⟨16, _⟩ => ⟨S20000x32x128, .i1⟩
  | .hbm, ⟨17, _⟩ => ⟨S20000x32x128, .f32⟩
  | .hbm, ⟨18, _⟩ => ⟨S20000x32x128, .f32⟩
  | .hbm, ⟨19, _⟩ => ⟨S20000x32x128, .f32⟩
  | .hbm, ⟨20, _⟩ => ⟨S20000x32x128, .f32⟩
  | .hbm, ⟨21, _⟩ => ⟨S20000x32x128, .f32⟩
  | .hbm, ⟨22, _⟩ => ⟨S20000x32x128, .f32⟩
  | .hbm, ⟨23, _⟩ => ⟨S20000x32x128, .f32⟩
  | .hbm, ⟨24, _⟩ => ⟨S20000x32x128, .f32⟩
  | .hbm, ⟨25, _⟩ => ⟨S20000x32x128, .f32⟩
  | .hbm, ⟨26, _⟩ => ⟨S1x1x128, .f32⟩
  | .hbm, ⟨27, _⟩ => ⟨S20000x32x128, .f32⟩
  | .hbm, ⟨28, _⟩ => ⟨S20000x32x128, .f32⟩
  | .hbm, ⟨29, _⟩ => ⟨S_, .i32⟩
  | .hbm, ⟨30, _⟩ => ⟨S20000x32, .i32⟩
  | .hbm, ⟨31, _⟩ => ⟨S20000x32, .i1⟩
  | .hbm, ⟨32, _⟩ => ⟨S_, .i32⟩
  | .hbm, ⟨33, _⟩ => ⟨S20000x32, .i32⟩
  | .hbm, ⟨34, _⟩ => ⟨S20000x32, .i32⟩
  | .hbm, ⟨35, _⟩ => ⟨S20000x32, .i32⟩
  | .hbm, ⟨36, _⟩ => ⟨S20000x32x1, .i32⟩
  | .hbm, ⟨37, _⟩ => ⟨S20000x32x128, .f32⟩
  | .hbm, ⟨38, _⟩ => ⟨S20000x32x128, .f32⟩
  | .hbm, ⟨39, _⟩ => ⟨S_, .f32⟩
  | .hbm, ⟨40, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S20000x32x128_0_1_2 : S1x1x128.BroadcastsInDim S20000x32x128 (![0, 1, 2] : Fin 3 → Fin S20000x32x128.rank)
  bcast_S_S20000x32x128 : S_.BroadcastsInDim S20000x32x128 (![] : Fin 0 → Fin S20000x32x128.rank)
  bcast_S_S20000x32 : S_.BroadcastsInDim S20000x32 (![] : Fin 0 → Fin S20000x32.rank)
  bcast_S20000x32_S20000x32x1_0_1 : S20000x32.BroadcastsInDim S20000x32x1 (![0, 1] : Fin 2 → Fin S20000x32x1.rank)
  reducesTo_S20000x32x128_S20000x128_d1 : S20000x32x128.ReducesTo [1] S20000x128
  h_S_ : 0 < S_.numel
  dot_S20000x32x64_S64x128_S20000x32x128_2_0_01_1_n_n_wf : DotDims.WF S20000x32x64 S64x128 S20000x32x128 [2] [0] [0, 1] [1] [] []
  dot_S20000x32x128_S128x128_S20000x32x128_2_0_01_1_n_n_wf : DotDims.WF S20000x32x128 S128x128 S20000x32x128 [2] [0] [0, 1] [1] [] []
  gather_S20000x128_S20000x32x1_S20000x32x128_2_0_n_n_0_2_1128_wf : GatherDims.WF S20000x128 S20000x32x1 S20000x32x128 [2] [0] [] [0] [] 2 ![1, 128]

variable [Facts₀]

def dot_S20000x32x64_S64x128_S20000x32x128_2_0_01_1_n_n : DotDims S20000x32x64 S64x128 S20000x32x128 where
  lhsContracting := [2]
  rhsContracting := [0]
  lhsNonContracting := [0, 1]
  rhsNonContracting := [1]
  lhsBatch := []
  rhsBatch := []
  wf := dot_S20000x32x64_S64x128_S20000x32x128_2_0_01_1_n_n_wf
def dot_S20000x32x128_S128x128_S20000x32x128_2_0_01_1_n_n : DotDims S20000x32x128 S128x128 S20000x32x128 where
  lhsContracting := [2]
  rhsContracting := [0]
  lhsNonContracting := [0, 1]
  rhsNonContracting := [1]
  lhsBatch := []
  rhsBatch := []
  wf := dot_S20000x32x128_S128x128_S20000x32x128_2_0_01_1_n_n_wf
def gather_S20000x128_S20000x32x1_S20000x32x128_2_0_n_n_0_2_1128 : GatherDims S20000x128 S20000x32x1 S20000x32x128 where
  offsetDims := [2]
  collapsedSliceDims := [0]
  operandBatchingDims := []
  startIndicesBatchingDims := []
  startIndexMap := [0]
  indexVectorDim := 2
  sliceSizes := ![1, 128]
  wf := gather_S20000x128_S20000x32x1_S20000x32x128_2_0_n_n_0_2_1128_wf

class Facts : Prop extends Facts₀ where

variable [Facts]
-- ==== Proof.Spec.lean ====
/-
  The continuous-filter convolution both programs compute, as ONE function of the arrays, index by index, on
  the extended reals. For an atom `a`, a neighbour slot `n` and a feature `f`:

    hidden a n g = softplus (∑ r, rbf[a, n, r] · w1[r, g] + b1[g])          (first linear map, then softplus)
    filt   a n f = ∑ g, hidden a n g · w2[g, f] + b2[f]                      (second linear map)
    conv   a f   = ∑ n, xj[a, n, f] · filt a n f                            (weight the neighbour's row, sum the slots)

  `xj` is the array of neighbour rows, already gathered; the row count `A` is a parameter, so that the same
  function is read on a block of 200 atoms and on all 20000. `softplus z` is written as both programs spell it,
  `max z 0 + log1p (exp (-|z - 0|))` under a guard `z - 0 ≠ z - 0` that never fires on the extended reals, with
  the zero kept as the word both programs print.
-/
import Idealize.ShloMosaic.PureOps.Ideal
import Idealize.ShloMosaic.PureOps.Ideal.Laws
import Idealize.ShloMosaic.Lib.ValueIdx

noncomputable section

open scoped BigOperators

namespace Cert.CfConv

open Idealize.ShloMosaic Idealize.ShloMosaic.ValueIdx

/-- The zero both programs print: the f32 word `0x00000000`, which denotes the extended real `0`. -/
abbrev zero32 : EReal := Ideal.ofBits .f32 0x00000000#32

theorem zero32_eq : zero32 = 0 := Ideal.ofBits_zero_f32

/-- `softplus`, in the numerically stable form of `logaddexp z 0`: where `z - 0` differs from itself (never, on
    the extended reals) `z + 0`, else `max z 0 + log (1 + exp (-|z - 0|))`. -/
def softplus (z : EReal) : EReal :=
  Scalar.select (Ideal.cmp .one (z - zero32) (z - zero32)) (z + zero32)
    (max z zero32 + Ideal.log1p (Ideal.exp (-(max (z - zero32) (-(z - zero32))))))

/-- Subtracting from the zero word is negation: `0 - y = -y` on the extended reals. -/
theorem zero32_sub (y : EReal) : zero32 - y = -y := by
  rw [zero32_eq, zero_sub]

/-- The unordered and the ordered "not equal" are one test on the extended reals, which have no NaN. -/
theorem cmp_une_eq_one (x y : EReal) : Ideal.cmp .une x y = Ideal.cmp .one x y := rfl

variable {A : Nat}

/-- The filter network's hidden layer at atom `a`, slot `n`, hidden feature `g`. -/
def hidden (rbf : (⟨3, ![A, 32, 64]⟩ : Shape).Idx → EReal) (w1 : (⟨2, ![64, 128]⟩ : Shape).Idx → EReal)
    (b1 : (⟨1, ![128]⟩ : Shape).Idx → EReal) (a : Fin A) (n : Fin 32) (g : Fin 128) : EReal :=
  softplus (∑ r : Fin 64, rbf (ix3 a n r) * w1 (ix2 r g) + b1 (ix1 g))

/-- The filter at atom `a`, slot `n`, feature `f`. -/
def filt (rbf : (⟨3, ![A, 32, 64]⟩ : Shape).Idx → EReal) (w1 : (⟨2, ![64, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (a : Fin A) (n : Fin 32) (f : Fin 128) : EReal :=
  ∑ g : Fin 128, hidden rbf w1 b1 a n g * w2 (ix2 g f) + b2 (ix1 f)

/-- The convolution at atom `a`, feature `f`: the neighbours' rows weighted by the filter, summed over the slots. -/
def convAt (xj : (⟨3, ![A, 32, 128]⟩ : Shape).Idx → EReal) (rbf : (⟨3, ![A, 32, 64]⟩ : Shape).Idx → EReal)
    (w1 : (⟨2, ![64, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (a : Fin A) (f : Fin 128) : EReal :=
  ∑ n : Fin 32, xj (ix3 a n f) * filt rbf w1 b1 w2 b2 a n f

/-- The whole result array. -/
def conv (xj : (⟨3, ![A, 32, 128]⟩ : Shape).Idx → EReal) (rbf : (⟨3, ![A, 32, 64]⟩ : Shape).Idx → EReal)
    (w1 : (⟨2, ![64, 128]⟩ : Shape).Idx → EReal) (b1 : (⟨1, ![128]⟩ : Shape).Idx → EReal)
    (w2 : (⟨2, ![128, 128]⟩ : Shape).Idx → EReal) (b2 : (⟨1, ![128]⟩ : Shape).Idx → EReal) :
    (⟨2, ![A, 128]⟩ : Shape).Idx → EReal :=
  fun j => convAt xj rbf w1 b1 w2 b2 (j 0) (j 1)

/-- The convolution at an atom reads the atom's own rows of `xj` and `rbf`, the two weight matrices and the two
    bias rows, and nothing else: two sets of arrays, of any two row counts, that agree on those entries (atom `a` of
    the one, atom `a'` of the other) give the same value at feature `f`. -/
theorem convAt_congr {A' : Nat}
    (xj : (⟨3, ![A, 32, 128]⟩ : Shape).Idx → EReal) (rbf : (⟨3, ![A, 32, 64]⟩ : Shape).Idx → EReal)
    (w1 : (⟨2, ![64, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (xj' : (⟨3, ![A', 32, 128]⟩ : Shape).Idx → EReal) (rbf' : (⟨3, ![A', 32, 64]⟩ : Shape).Idx → EReal)
    (w1' : (⟨2, ![64, 128]⟩ : Shape).Idx → EReal) (b1' : (⟨1, ![128]⟩ : Shape).Idx → EReal)
    (w2' : (⟨2, ![128, 128]⟩ : Shape).Idx → EReal) (b2' : (⟨1, ![128]⟩ : Shape).Idx → EReal)
    (a : Fin A) (a' : Fin A') (f : Fin 128)
    (hx : ∀ n : Fin 32, xj (ix3 a n f) = xj' (ix3 a' n f))
    (hr : ∀ (n : Fin 32) (r : Fin 64), rbf (ix3 a n r) = rbf' (ix3 a' n r))
    (hw1 : ∀ (r : Fin 64) (g : Fin 128), w1 (ix2 r g) = w1' (ix2 r g))
    (hb1 : ∀ g : Fin 128, b1 (ix1 g) = b1' (ix1 g))
    (hw2 : ∀ g : Fin 128, w2 (ix2 g f) = w2' (ix2 g f))
    (hb2 : b2 (ix1 f) = b2' (ix1 f)) :
    convAt xj rbf w1 b1 w2 b2 a f = convAt xj' rbf' w1' b1' w2' b2' a' f := by
  unfold convAt filt hidden
  refine Finset.sum_congr rfl fun n _ => ?_
  rw [hx n, hb2]
  refine congrArg (fun y => xj' (ix3 a' n f) * (y + b2' (ix1 f))) ?_
  refine Finset.sum_congr rfl fun g _ => ?_
  rw [hw2 g, hb1 g]
  refine congrArg (fun y => softplus (y + b1' (ix1 g)) * w2' (ix2 g f)) ?_
  exact Finset.sum_congr rfl fun r _ => by rw [hr n r, hw1 r g]

end Cert.CfConv

end
-- ==== Proof.FilterBlock.lean ====
/-
  One grid point's arithmetic. The kernel's body takes a block of 200 atoms: it lays the block's [200, 32, 64]
  radial features out as 6400 rows, applies the first linear map and softplus, the second linear map, lays the
  6400 rows back out as [200, 32, 128], multiplies by the block of neighbour rows and sums over the 32 slots.
  Read at atom `p` of the block and feature `q` this is the convolution `convAt` of the block's own arrays:
  row `32·p + n` of the flattened block is atom `p`, slot `n`; a matrix product into a zero accumulator is the
  plain sum over the contracted axis; a change of float format is the identity on the extended reals.
-/
import proofs.«407500_j87677462380692_1_alg».proof.Proof.Gen.KernelIdeal.Skeleton
import proofs.«407500_j87677462380692_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.CfConv.Block

open Idealize.ShloMosaic Idealize.ShloMosaic.ValueIdx Cert.KernelIdeal Cert.KernelIdeal.Gen Cert.CfConv

/-! ## The three stages of the body, as functions of their inputs -/

/-- The first linear map on the flattened block, with its bias: [6400, 128]. -/
def lin1 (v0 : Vec Ideal S200x32x64 .f32) (v2 : Vec Ideal S64x128 .f32) (v6 : Vec Ideal S128 .f32) : FVec Ideal S6400x128 .f32 :=
  addf (matmul dot_S6400x64_S64x128_S6400x128_1_0_0_1_n_n none (truncf .bf16 (shapeCast S6400x64 v0 shapeCasts_S200x32x64_S6400x64) bitsLt_bf16_f32)
      (truncf .bf16 v2 bitsLt_bf16_f32) (constant S6400x128 .f32 0x00000000#32))
    (broadcastTo S6400x128 (shapeCast S1x128 v6 shapeCasts_S128_S1x128) broadcasts_S1x128_S6400x128)

/-- The activation, entry by entry, as the body spells softplus. -/
def act (v9 : FVec Ideal S6400x128 .f32) : FVec Ideal S6400x128 .f32 :=
  select (cmpf .one (subf v9 (broadcast S6400x128 (Scalar.ofBits .f32 0x00000000#32))) (subf v9 (broadcast S6400x128 (Scalar.ofBits .f32 0x00000000#32))))
    (addf v9 (broadcast S6400x128 (Scalar.ofBits .f32 0x00000000#32)))
    (addf (maximumf v9 (broadcast S6400x128 (Scalar.ofBits .f32 0x00000000#32)))
      (log1p (exp (subf (broadcast S6400x128 (Scalar.ofBits .f32 0x00000000#32))
        (absf (subf v9 (broadcast S6400x128 (Scalar.ofBits .f32 0x00000000#32))))))))

/-- The second linear map, with its bias: [6400, 128]. -/
def lin2 (v23 : FVec Ideal S6400x128 .f32) (v24 : Vec Ideal S128x128 .f32) (v28 : Vec Ideal S128 .f32) : FVec Ideal S6400x128 .f32 :=
  addf (matmul dot_S6400x128_S128x128_S6400x128_1_0_0_1_n_n none (truncf .bf16 v23 bitsLt_bf16_f32)
      (truncf .bf16 v24 bitsLt_bf16_f32) (constant S6400x128 .f32 0x00000000#32))
    (broadcastTo S6400x128 (shapeCast S1x128 v28 shapeCasts_S128_S1x128) broadcasts_S1x128_S6400x128)

/-- The body's stored value is the slot sum of the neighbour rows times the re-laid second layer. -/
theorem pay_eq (v0 : Vec Ideal S200x32x64 .f32) (v2 : Vec Ideal S64x128 .f32) (v6 : Vec Ideal S128 .f32)
    (v24 : Vec Ideal S128x128 .f32) (v28 : Vec Ideal S128 .f32) (v33 : Vec Ideal S200x32x128 .f32) :
    k0_pay1 (F := Ideal) v0 v2 v6 v24 v28 v33
      = multiReduction .add [1] S200x128
          (mulf (shapeCast S200x32x128 v33 shapeCasts_S200x32x128_S200x32x128)
            (shapeCast S200x32x128 (lin2 (act (lin1 v0 v2 v6)) v24 v28) shapeCasts_S6400x128_S200x32x128))
          0x00000000#32 reduces_S200x32x128_S200x128 (.inl rfl) rfl := rfl

/-! ## Layout: atom `p`, slot `n` is row `32·p + n` of the flattened block -/

/-- The flattened row of atom `p`, slot `n`. -/
abbrev flat (p : Fin 200) (n : Fin 32) : Fin 6400 := ⟨p.val * 32 + n.val, by have := p.isLt; have := n.isLt; omega⟩

theorem flatten_apply (v : S200x32x64.Idx → EReal) (h : S200x32x64.ShapeCasts S6400x64) (p : Fin 200) (n : Fin 32) (r : Fin 64) :
    shapeCast S6400x64 v h (ix2 (flat p n) r) = v (ix3 p n r) :=
  shapeCast_apply v h _ _ (by rw [Shape.rowMajor_val_three, Shape.rowMajor_val_two]; rfl)

theorem unflatten_apply (v : S6400x128.Idx → EReal) (h : S6400x128.ShapeCasts S200x32x128) (p : Fin 200) (n : Fin 32) (q : Fin 128) :
    shapeCast S200x32x128 v h (ix3 p n q) = v (ix2 (flat p n) q) :=
  shapeCast_apply v h _ _ (by rw [Shape.rowMajor_val_two, Shape.rowMajor_val_three]; rfl)

/-- A bias row laid over every row of a [6400, 128] array. -/
theorem bias_apply (b : S128.Idx → EReal) (h1 : S128.ShapeCasts S1x128) (h2 : S1x128.Broadcasts S6400x128) (P : Fin 6400) (g : Fin 128) :
    broadcastTo S6400x128 (shapeCast S1x128 b h1) h2 (ix2 P g) = b (ix1 g) :=
  (broadcastTo_1b_ab_apply (shapeCast S1x128 b h1) h2 P g).trans (shapeCast_a_1a_apply b h1 0 g)

/-! ## The two matrix products, read at an entry -/

theorem lhs1_0 (i : S6400x128.Idx) (k : dot_S6400x64_S64x128_S6400x128_1_0_0_1_n_n.contr.Idx) :
    (dot_S6400x64_S64x128_S6400x128_1_0_0_1_n_n.lhsIdx i k 0).val = (i 0).val := by
  unfold DotDims.lhsIdx
  rw [dif_neg (show ¬(0 : Fin S6400x64.rank) ∈ dot_S6400x64_S64x128_S6400x128_1_0_0_1_n_n.lhsBatch by decide), dif_pos (show (0 : Fin S6400x64.rank) ∈ dot_S6400x64_S64x128_S6400x128_1_0_0_1_n_n.lhsNonContracting by decide)]
  rfl
theorem lhs1_1 (i : S6400x128.Idx) (k : dot_S6400x64_S64x128_S6400x128_1_0_0_1_n_n.contr.Idx) :
    (dot_S6400x64_S64x128_S6400x128_1_0_0_1_n_n.lhsIdx i k 1).val = (k ⟨0, by decide⟩).val :=
  dot_S6400x64_S64x128_S6400x128_1_0_0_1_n_n.lhsIdx_val_of_single rfl i k
theorem rhs1_0 (i : S6400x128.Idx) (k : dot_S6400x64_S64x128_S6400x128_1_0_0_1_n_n.contr.Idx) :
    (dot_S6400x64_S64x128_S6400x128_1_0_0_1_n_n.rhsIdx i k 0).val = (k ⟨0, by decide⟩).val :=
  dot_S6400x64_S64x128_S6400x128_1_0_0_1_n_n.rhsIdx_val_of_single rfl i k
theorem rhs1_1 (i : S6400x128.Idx) (k : dot_S6400x64_S64x128_S6400x128_1_0_0_1_n_n.contr.Idx) :
    (dot_S6400x64_S64x128_S6400x128_1_0_0_1_n_n.rhsIdx i k 1).val = (i 1).val := by
  unfold DotDims.rhsIdx
  rw [dif_neg (show ¬(1 : Fin S64x128.rank) ∈ dot_S6400x64_S64x128_S6400x128_1_0_0_1_n_n.rhsBatch by decide), dif_pos (show (1 : Fin S64x128.rank) ∈ dot_S6400x64_S64x128_S6400x128_1_0_0_1_n_n.rhsNonContracting by decide)]
  rfl

/-- The first product at row `P`, column `g`: the sum over the 64 radial features. -/
theorem matmul1_apply (l : FVec Ideal S6400x64 .bf16) (r : FVec Ideal S64x128 .bf16) (P : Fin 6400) (g : Fin 128) :
    matmul dot_S6400x64_S64x128_S6400x128_1_0_0_1_n_n none l r (constant (F := Ideal) S6400x128 .f32 0x00000000#32) (ix2 P g)
      = ∑ k : Fin 64, l (ix2 P k) * r (ix2 k g) := by
  simp only [matmul]
  rw [Ideal.matmul_constant_zero_apply, ← Equiv.sum_comp (contrEquiv1 dot_S6400x64_S64x128_S6400x128_1_0_0_1_n_n 64 rfl rfl).symm]
  refine Finset.sum_congr rfl fun k _ => ?_
  have hk := contrEquiv1_symm_val dot_S6400x64_S64x128_S6400x128_1_0_0_1_n_n 64 rfl rfl k
  have el : dot_S6400x64_S64x128_S6400x128_1_0_0_1_n_n.lhsIdx (ix2 P g) ((contrEquiv1 dot_S6400x64_S64x128_S6400x128_1_0_0_1_n_n 64 rfl rfl).symm k) = ix2 P k := funext fun a => Fin.ext (by
    match a with
    | ⟨0, _⟩ => exact lhs1_0 _ _
    | ⟨1, _⟩ => exact (lhs1_1 _ _).trans hk)
  have er : dot_S6400x64_S64x128_S6400x128_1_0_0_1_n_n.rhsIdx (ix2 P g) ((contrEquiv1 dot_S6400x64_S64x128_S6400x128_1_0_0_1_n_n 64 rfl rfl).symm k) = ix2 k g := funext fun a => Fin.ext (by
    match a with
    | ⟨0, _⟩ => exact (rhs1_0 _ _).trans hk
    | ⟨1, _⟩ => exact rhs1_1 _ _)
  rw [el, er]

theorem lhs2_0 (i : S6400x128.Idx) (k : dot_S6400x128_S128x128_S6400x128_1_0_0_1_n_n.contr.Idx) :
    (dot_S6400x128_S128x128_S6400x128_1_0_0_1_n_n.lhsIdx i k 0).val = (i 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
theorem lhs2_1 (i : S6400x128.Idx) (k : dot_S6400x128_S128x128_S6400x128_1_0_0_1_n_n.contr.Idx) :
    (dot_S6400x128_S128x128_S6400x128_1_0_0_1_n_n.lhsIdx i k 1).val = (k ⟨0, by decide⟩).val :=
  dot_S6400x128_S128x128_S6400x128_1_0_0_1_n_n.lhsIdx_val_of_single rfl i k
theorem rhs2_0 (i : S6400x128.Idx) (k : dot_S6400x128_S128x128_S6400x128_1_0_0_1_n_n.contr.Idx) :
    (dot_S6400x128_S128x128_S6400x128_1_0_0_1_n_n.rhsIdx i k 0).val = (k ⟨0, by decide⟩).val :=
  dot_S6400x128_S128x128_S6400x128_1_0_0_1_n_n.rhsIdx_val_of_single rfl i k
theorem rhs2_1 (i : S6400x128.Idx) (k : dot_S6400x128_S128x128_S6400x128_1_0_0_1_n_n.contr.Idx) :
    (dot_S6400x128_S128x128_S6400x128_1_0_0_1_n_n.rhsIdx i k 1).val = (i 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl

/-- The second product at row `P`, column `f`: the sum over the 128 hidden features. -/
theorem matmul2_apply (l : FVec Ideal S6400x128 .bf16) (r : FVec Ideal S128x128 .bf16) (P : Fin 6400) (f : Fin 128) :
    matmul dot_S6400x128_S128x128_S6400x128_1_0_0_1_n_n none l r (constant (F := Ideal) S6400x128 .f32 0x00000000#32) (ix2 P f)
      = ∑ k : Fin 128, l (ix2 P k) * r (ix2 k f) := by
  simp only [matmul]
  rw [Ideal.matmul_constant_zero_apply, ← Equiv.sum_comp (contrEquiv1 dot_S6400x128_S128x128_S6400x128_1_0_0_1_n_n 128 rfl rfl).symm]
  refine Finset.sum_congr rfl fun k _ => ?_
  have hk := contrEquiv1_symm_val dot_S6400x128_S128x128_S6400x128_1_0_0_1_n_n 128 rfl rfl k
  have el : dot_S6400x128_S128x128_S6400x128_1_0_0_1_n_n.lhsIdx (ix2 P f) ((contrEquiv1 dot_S6400x128_S128x128_S6400x128_1_0_0_1_n_n 128 rfl rfl).symm k) = ix2 P k := funext fun a => Fin.ext (by
    match a with
    | ⟨0, _⟩ => exact lhs2_0 _ _
    | ⟨1, _⟩ => exact (lhs2_1 _ _).trans hk)
  have er : dot_S6400x128_S128x128_S6400x128_1_0_0_1_n_n.rhsIdx (ix2 P f) ((contrEquiv1 dot_S6400x128_S128x128_S6400x128_1_0_0_1_n_n 128 rfl rfl).symm k) = ix2 k f := funext fun a => Fin.ext (by
    match a with
    | ⟨0, _⟩ => exact (rhs2_0 _ _).trans hk
    | ⟨1, _⟩ => exact rhs2_1 _ _)
  rw [el, er]

/-! ## The stages at an entry -/

/-- The first layer at atom `p`, slot `n`, hidden feature `g`. -/
theorem lin1_apply (v0 : Vec Ideal S200x32x64 .f32) (v2 : Vec Ideal S64x128 .f32) (v6 : Vec Ideal S128 .f32)
    (p : Fin 200) (n : Fin 32) (g : Fin 128) :
    lin1 v0 v2 v6 (ix2 (flat p n) g) = ∑ r : Fin 64, v0 (ix3 p n r) * v2 (ix2 r g) + v6 (ix1 g) := by
  unfold lin1
  rw [addf_apply, matmul1_apply, bias_apply]
  refine congrArg (· + v6 (ix1 g)) (Finset.sum_congr rfl fun r _ => ?_)
  rw [truncf_apply, truncf_apply, flatten_apply]

/-- The activation at an entry is `softplus` of the entry: the body writes `0 - |z - 0|` where the specification
    writes `-|z - 0|`. -/
theorem act_apply (v9 : FVec Ideal S6400x128 .f32) (i : S6400x128.Idx) : act v9 i = softplus (v9 i) := by
  show Scalar.select (Ideal.cmp .one (v9 i - zero32) (v9 i - zero32)) (v9 i + zero32)
      (max (v9 i) zero32 + Ideal.log1p (Ideal.exp (zero32 - max (v9 i - zero32) (-(v9 i - zero32))))) = _
  unfold softplus
  rw [zero32_sub]

/-- The second layer at atom `p`, slot `n`, feature `f`. -/
theorem lin2_apply (v23 : FVec Ideal S6400x128 .f32) (v24 : Vec Ideal S128x128 .f32) (v28 : Vec Ideal S128 .f32)
    (P : Fin 6400) (f : Fin 128) :
    lin2 v23 v24 v28 (ix2 P f) = ∑ g : Fin 128, v23 (ix2 P g) * v24 (ix2 g f) + v28 (ix1 f) := by
  unfold lin2
  rw [addf_apply, matmul2_apply, bias_apply]
  rfl

/-- The filter the body computes for atom `p`, slot `n`, feature `f` of its block is the specification's. -/
theorem filt_block (v0 : Vec Ideal S200x32x64 .f32) (v2 : Vec Ideal S64x128 .f32) (v6 : Vec Ideal S128 .f32)
    (v24 : Vec Ideal S128x128 .f32) (v28 : Vec Ideal S128 .f32) (p : Fin 200) (n : Fin 32) (f : Fin 128) :
    lin2 (act (lin1 v0 v2 v6)) v24 v28 (ix2 (flat p n) f) = filt (A := 200) v0 v2 v6 v24 v28 p n f := by
  rw [lin2_apply]
  unfold filt hidden
  refine congrArg (· + v28 (ix1 f)) (Finset.sum_congr rfl fun g _ => ?_)
  rw [act_apply, lin1_apply]

/-! ## The body's value at atom `p`, feature `q` of the block -/

/-- The slot sum, with the accumulator's proof typed as the body prints it. -/
theorem slotSum_apply (src : FVec Ideal S200x32x128 .f32) (h : S200x32x128.Reduces [1] S200x128)
    (hφ : FKind.Formats .f32) (hacc : (0x00000000#32 : BitVec 32) = FKind.add.neutral .f32 hφ) (p : Fin 200) (q : Fin 128) :
    multiReduction .add [1] S200x128 src 0x00000000#32 h hφ hacc (ix2 p q) = ∑ n : Fin 32, src (ix3 p n q) := by
  refine (Ideal.multiReduction_add_single src 0x00000000#32 h hφ hacc (ix2 p q)).trans ?_
  refine Finset.sum_congr rfl fun n _ => congrArg src ?_
  funext a; refine Fin.ext ?_
  match a with
  | ⟨0, _⟩ => rfl
  | ⟨1, _⟩ => rfl
  | ⟨2, _⟩ => rfl

/-- THE BLOCK'S VALUE: what the body stores at atom `p`, feature `q` is the convolution of the block's arrays. -/
theorem pay_apply (v0 : Vec Ideal S200x32x64 .f32) (v2 : Vec Ideal S64x128 .f32) (v6 : Vec Ideal S128 .f32)
    (v24 : Vec Ideal S128x128 .f32) (v28 : Vec Ideal S128 .f32) (v33 : Vec Ideal S200x32x128 .f32) (p : Fin 200) (q : Fin 128) :
    k0_pay1 (F := Ideal) v0 v2 v6 v24 v28 v33 (ix2 p q) = convAt (A := 200) v33 v0 v2 v6 v24 v28 p q := by
  rw [pay_eq]
  refine (slotSum_apply _ _ _ _ p q).trans ?_
  unfold convAt
  refine Finset.sum_congr rfl fun n _ => ?_
  rw [mulf_apply, shapeCast_self, unflatten_apply, filt_block]

end Cert.CfConv.Block

end
-- ==== Proof.LibReduceAndAll.lean ====
/-
  The converse of reading a `jnp.all` back: a `stablehlo.reduce` by `and` over `i1` words is 1 at a result index
  as soon as its initial value is 1 and every operand element that reduces into that index is 1 — a left fold of `and`
  that starts at 1 and meets only 1s stays at 1.
-/
import Idealize.ShloMosaic.Lib.ReduceAll

namespace Cert.Gcn

open Idealize.ShloMosaic

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons_self ..)
    have h11 : IntOp.andi (1#1 : BitVec 1) 1#1 = 1#1 := by decide
    rw [List.foldl_cons, ha, h11]
    exact foldl_andi_one f l fun n hn => h n (List.mem_cons_of_mem _ hn)

variable {s t u : Shape} {axes : List (Fin s.rank)}

/-- A reduce by `and` from 1 whose operand is 1 at every index reducing into `j` is 1 at `j`. -/
theorem reduce_andi_of_all (x : s.Idx → BitVec 1) (init : u.Idx → BitVec 1) (h : s.ReducesTo axes t) (hu : 0 < u.numel)
    (j : t.Idx) (hinit : init (Shape.Idx.first hu) = 1#1) (hx : ∀ i, h.drop i = j → x i = 1#1) :
    Host.reduce IntOp.andi x init h hu j = 1#1 := by
  rw [Host.reduce_eq_foldl, hinit]
  refine foldl_andi_one x _ fun i hi => hx i ?_
  rw [List.mem_filter] at hi
  simpa using hi.2

end Cert.Gcn
-- ==== Proof.Neighbours.lean ====
/-
  The neighbour rows the kernel's region is launched with. Before the region the host takes the rows of `x` at the
  neighbour indices: an index below zero counts from the end (20000 is added), a validity mask marks the wrapped
  indices that lie in [0, 19999], the rows are gathered (a gather clamps its start index), and where the mask is
  clear the row is replaced by a fill. Under the precondition every index lies in [-20000, 20000), so every
  wrapped index lies in [0, 19999]: the mask is set everywhere, the fill is never chosen, and the region is
  launched with the plain gathered rows.
-/
import proofs.«407500_j87677462380692_1_alg».proof.Proof.Gen.KernelIdeal.Frame
import proofs.«407500_j87677462380692_1_alg».proof.Pre_finite_inputs
import proofs.«407500_j87677462380692_1_alg».proof.Proof.LibReduceAndAll
import Idealize.ShloMosaic.Lib.Affine
import Idealize.ShloMosaic.Lib.ReduceAll
import Idealize.ShloMosaic.Lib.Pipeline.Value
import Idealize.ShloMosaic.Lib.StableHlo.Run
import Idealize.ShloMosaic.Lib.ValueIdx

noncomputable section

namespace Cert.CfConv.Nbr

open Idealize.ShloMosaic Idealize.ShloMosaic.TcCoe Idealize.ShloMosaic.ValueIdx Idealize.SL.Sem
open Cert.KernelIdeal Cert.KernelIdeal.Gen

/-! ## The host's stages, as functions of the index array -/

/-- The indices with the negative ones counted from the end. -/
def wrapped (nb : IVec S20000x32 32) : IVec S20000x32 32 :=
  select (cmpi .slt nb (broadcastInDim S20000x32 ![] bcast_S_S20000x32 (constantI S_ 32 0#32)))
    (addi nb (broadcastInDim S20000x32 ![] bcast_S_S20000x32 (constantI S_ 32 20000#32))) nb

/-- The gather's start indices: the wrapped indices with a trailing unit axis. -/
def startIdx (nb : IVec S20000x32 32) : IVec S20000x32x1 32 :=
  broadcastInDim S20000x32x1 ![0, 1] bcast_S20000x32_S20000x32x1_0_1 (wrapped nb)

/-- The validity mask: the wrapped index is at least 0 and at most 19999. -/
def inRange (nb : IVec S20000x32 32) : IVec S20000x32 1 :=
  Host.reduce IntOp.andi
    (andi (cmpi .sge (startIdx nb) (broadcastInDim S20000x32x1 ![] bcast_S_S20000x32x1 (constantI S_ 32 0#32)))
      (cmpi .sle (startIdx nb) (broadcastInDim S20000x32x1 ![0, 1, 2] bcast_S1x1x1_S20000x32x1_0_1_2
        (broadcastInDim S1x1x1 ![2] bcast_S1_S1x1x1_2 (constantI S1 32 19999#32)))))
    (constantI S_ 1 1#1) reducesTo_S20000x32x1_S20000x32_d2 h_S_

/-- The gathered rows. -/
def rows (x : S20000x128.Idx → EReal) (nb : IVec S20000x32 32) : S20000x32x128.Idx → EReal :=
  Host.gather gather_S20000x128_S20000x32x1_S20000x32x128_2_0_n_n_0_2_1128 x (startIdx nb)

/-- What the host leaves for the region: the gathered rows where the mask is set, the fill elsewhere. -/
def taken (x : S20000x128.Idx → EReal) (nb : IVec S20000x32 32) : S20000x32x128.Idx → EReal :=
  select (broadcastInDim S20000x32x128 ![0, 1] bcast_S20000x32_S20000x32x128_0_1 (inRange nb)) (rows x nb)
    (broadcastInDim S20000x32x128 ![] bcast_S_S20000x32x128 (constant (F := Ideal) S_ .f32 0x7FC00000#32))

set_option maxHeartbeats 2000000 in
set_option maxRecDepth 65536 in
/-- The region finds the neighbour-row array at `taken` of the two arguments. -/
theorem entry_rows (m : (ℓ : Loc nD τ sig) → Buf (Elt Ideal) ℓ) (c : Dev nD) :
    (V (F := Ideal) m c main_v0 : S20000x32x128.Idx → EReal)
      = taken (m ((c : Thread nD τ).loc main_arg0)) (m ((c : Thread nD τ).loc main_arg2)) := by
  show StableHlo.after (hostOps0 (F := Ideal)) (fun b => m (c, b)) (Proc.devRef .tc main_v0) = _
  generalize hR : taken (m ((c : Thread nD τ).loc main_arg0)) (m ((c : Thread nD τ).loc main_arg2)) = R
  after_results
  simp only [StableHlo.TRef.toBuf, StableHlo.TRef.ofBuf, cast_cast, cast_eq]
  refine Eq.trans ?_ hR
  rfl

/-! ## The mask under the index range -/

/-- Adding 20000 to a word in [-20000, 0) does not wrap. -/
theorem add_noWrap (w : BitVec 32) (h1 : -20000 ≤ w.toInt) (h2 : w.toInt < 0) : (w + 20000#32).toInt = w.toInt + 20000 := by
  rw [BitVec.toInt_add]
  have : (20000#32 : BitVec 32).toInt = 20000 := by decide
  rw [this]
  have hb := BitVec.toInt_lt (x := w)
  have hl := BitVec.le_toInt (x := w)
  simp only [Int.bmod]
  omega

/-- A word in [-20000, 20000), wrapped, lies in [0, 19999]. -/
theorem wrapped_inRange (w : BitVec 32) (hlo : IntOp.cmpi .sge w 4294947296#32 = 1#1) (hhi : IntOp.cmpi .slt w 20000#32 = 1#1) :
    IntOp.andi (IntOp.cmpi .sge (Scalar.select (IntOp.cmpi .slt w 0#32) (IntOp.addi w 20000#32) w) 0#32)
      (IntOp.cmpi .sle (Scalar.select (IntOp.cmpi .slt w 0#32) (IntOp.addi w 20000#32) w) 19999#32) = 1#1 := by
  have c1 : (4294947296#32 : BitVec 32).toInt = -20000 := by decide
  have c2 : (20000#32 : BitVec 32).toInt = 20000 := by decide
  have c0 : (0#32 : BitVec 32).toInt = 0 := by decide
  have c3 : (19999#32 : BitVec 32).toInt = 19999 := by decide
  have h1 : -20000 ≤ w.toInt := by have := IntOp.cmpi_sge.mp hlo; rw [c1] at this; exact this
  have h2 : w.toInt < 20000 := by have := IntOp.cmpi_slt.mp hhi; rw [c2] at this; exact this
  rw [IntOp.andi_eq_one, IntOp.cmpi_sge, IntOp.cmpi_sle, c0, c3]
  by_cases hn : w.toInt < 0
  · have e : IntOp.cmpi .slt w 0#32 = 1#1 := IntOp.cmpi_slt.mpr (by rw [c0]; exact hn)
    rw [e, select_one]
    show 0 ≤ (w + 20000#32).toInt ∧ (w + 20000#32).toInt ≤ 19999
    rw [add_noWrap w h1 hn]
    omega
  · have e : IntOp.cmpi .slt w 0#32 = 0#1 :=
      eq_zero_of_ne_one fun h => hn (by have := IntOp.cmpi_slt.mp h; rw [c0] at this; exact this)
    rw [e, select_zero]
    omega

/-- The row of the index array a start index sits at. -/
abbrev rowOf (k : S20000x32x1.Idx) : S20000x32.Idx := fun a => match a with
  | ⟨0, _⟩ => ⟨(k 0).val, (k 0).isLt⟩
  | ⟨1, _⟩ => ⟨(k 1).val, (k 1).isLt⟩

/-- With every index in [-20000, 20000) the validity mask is set everywhere. -/
theorem inRange_eq_one (nb : IVec S20000x32 32)
    (hlo : ∀ i, IntOp.cmpi .sge (nb i) 4294947296#32 = 1#1) (hhi : ∀ i, IntOp.cmpi .slt (nb i) 20000#32 = 1#1) :
    inRange nb = fun _ => 1#1 := by
  funext i
  unfold inRange
  refine Cert.Gcn.reduce_andi_of_all _ _ _ _ i rfl (fun k _ => ?_)
  have hk : startIdx nb k = wrapped nb (rowOf k) := by
    unfold startIdx
    exact broadcastInDim_apply _ bcast_S20000x32_S20000x32x1_0_1 (wrapped nb) k (rowOf k) (fun a => match a with
      | ⟨0, _⟩ => by show (k 0).val = if (20000 : Nat) = 1 then 0 else (k 0).val; rw [if_neg (by decide)]
      | ⟨1, _⟩ => by show (k 1).val = if (32 : Nat) = 1 then 0 else (k 1).val; rw [if_neg (by decide)])
  show IntOp.andi (IntOp.cmpi .sge (startIdx nb k) 0#32) (IntOp.cmpi .sle (startIdx nb k) 19999#32) = 1#1
  rw [hk]
  exact wrapped_inRange (nb (rowOf k)) (hlo _) (hhi _)

/-- So the region is launched with the plain gathered rows. -/
theorem taken_eq_rows (x : S20000x128.Idx → EReal) (nb : IVec S20000x32 32)
    (hlo : ∀ i, IntOp.cmpi .sge (nb i) 4294947296#32 = 1#1) (hhi : ∀ i, IntOp.cmpi .slt (nb i) 20000#32 = 1#1) :
    taken x nb = rows x nb := by
  unfold taken
  rw [inRange_eq_one nb hlo hhi]
  funext j
  exact select_one _ _

/-! ## The index range, read off the precondition -/

/-- The precondition's last two conjuncts: every neighbour index is at least -20000 and below 20000. -/
theorem range_of_pre [Cert.Pre_finite_inputs.Facts]
    (a0 : FVec Ideal Cert.Pre_finite_inputs.S20000x128 .f32) (a1 : FVec Ideal Cert.Pre_finite_inputs.S20000x32x64 .f32)
    (nb : IVec Cert.Pre_finite_inputs.S20000x32 32) (a3 : FVec Ideal Cert.Pre_finite_inputs.S64x128 .f32)
    (a4 : FVec Ideal Cert.Pre_finite_inputs.S128 .f32) (a5 : FVec Ideal Cert.Pre_finite_inputs.S128x128 .f32)
    (a6 : FVec Ideal Cert.Pre_finite_inputs.S128 .f32)
    (h : Cert.Pre_finite_inputs.fn (F := Ideal) a0 a1 nb a3 a4 a5 a6 = fun _ => 1#1) :
    (∀ i, IntOp.cmpi .sge (nb i) 4294947296#32 = 1#1) ∧ (∀ i, IntOp.cmpi .slt (nb i) 20000#32 = 1#1) := by
  have h0 := congrFun h ix0
  dsimp only [Cert.Pre_finite_inputs.fn, Cert.Pre_finite_inputs.fn_part1, Cert.Pre_finite_inputs.fn_part2] at h0
  haveI : Subsingleton Cert.Pre_finite_inputs.S_.Idx := ⟨fun a b => funext fun d => d.elim0⟩
  change IntOp.andi _ _ = 1#1 at h0
  obtain ⟨h32, h35⟩ := IntOp.andi_eq_one.mp h0
  change IntOp.andi _ _ = 1#1 at h32
  obtain ⟨_, h31⟩ := IntOp.andi_eq_one.mp h32
  exact ⟨fun i => Host.reduce_andi_all _ _ _ _ _ h31 i, fun i => Host.reduce_andi_all _ _ _ _ _ h35 i⟩

end Cert.CfConv.Nbr

end
-- ==== Proof.Tiling.lean ====
/-
  From blocks to the array. The grid has 100 points; point `t` is handed atoms 200·t … 200·t + 199 — the same 200
  rows of the radial features, of the neighbour rows and of the result — and the two weight matrices and two
  bias rows whole. So what point `t` writes back, the convolution of its blocks, is rows 200·t … 200·t + 199 of
  the convolution of the whole arrays; the 100 blocks tile the 20000 rows, so the result array ends holding the
  convolution of the arrays the region was launched with.
-/
import proofs.«407500_j87677462380692_1_alg».proof.Proof.Gen.KernelIdeal.Value
import proofs.«407500_j87677462380692_1_alg».proof.Proof.FilterBlock

noncomputable section

namespace Cert.CfConv.Tiling

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.CfConv

variable (m : (ℓ : Loc nD τ sig) → Buf (Elt Ideal) ℓ)

/-- The result array as one function of the arrays the region finds. -/
def result (c : Dev nD) : S20000x128.Idx → EReal :=
  conv (A := 20000) (V m c main_v0) (V m c main_arg1) (V m c main_arg3) (V m c main_arg4) (V m c main_arg5) (V m c main_arg6)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the three blocked windows sit at block `t` along the atoms, every other
    block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Atom `p` of point `t`'s block is atom `200·t + p`. -/
abbrev row (t : Fin cfg0.N) (p : Fin 200) : Fin 20000 :=
  ⟨t.val * 200 + p.val, by have := lt_of_lt_of_eq t.isLt N_0; have := p.isLt; omega⟩

/-! ## The blocks read where they lie in their arrays -/

theorem rbf_blk (c : Dev nD) (t : Fin cfg0.N) (p : Fin 200) (n : Fin 32) (r : Fin 64) :
    iblk m c 0 t (ix3 p n r) = V m c main_arg1 (ix3 (row t p) n r) := by
  obtain ⟨e0, e1, e2, -⟩ := idx_facts t
  show V m c main_arg1 (((cfg0.win 0).blk t).view.emb (ix3 p n r)) = V m c main_arg1 (ix3 (row t p) n r)
  refine congrArg (V m c main_arg1) (funext fun a => Fin.ext ?_)
  match a with
  | ⟨0, _⟩ => show win0_0.index t (0 : Fin 3) * 200 + 1 * p.val = t.val * 200 + p.val; omega
  | ⟨1, _⟩ => show win0_0.index t (1 : Fin 3) * 32 + 1 * n.val = n.val; omega
  | ⟨2, _⟩ => show win0_0.index t (2 : Fin 3) * 64 + 1 * r.val = r.val; omega

theorem xj_blk (c : Dev nD) (t : Fin cfg0.N) (p : Fin 200) (n : Fin 32) (f : Fin 128) :
    iblk m c 1 t (ix3 p n f) = V m c main_v0 (ix3 (row t p) n f) := by
  obtain ⟨-, -, -, e0, e1, e2, -⟩ := idx_facts t
  show V m c main_v0 (((cfg0.win 1).blk t).view.emb (ix3 p n f)) = V m c main_v0 (ix3 (row t p) n f)
  refine congrArg (V m c main_v0) (funext fun a => Fin.ext ?_)
  match a with
  | ⟨0, _⟩ => show win0_1.index t (0 : Fin 3) * 200 + 1 * p.val = t.val * 200 + p.val; omega
  | ⟨1, _⟩ => show win0_1.index t (1 : Fin 3) * 32 + 1 * n.val = n.val; omega
  | ⟨2, _⟩ => show win0_1.index t (2 : Fin 3) * 128 + 1 * f.val = f.val; omega

theorem w1_blk (c : Dev nD) (t : Fin cfg0.N) (r : Fin 64) (g : Fin 128) :
    iblk m c 2 t (ix2 r g) = V m c main_arg3 (ix2 r g) := by
  obtain ⟨-, -, -, -, -, -, e0, e1, -⟩ := idx_facts t
  show V m c main_arg3 (((cfg0.win 2).blk t).view.emb (ix2 r g)) = V m c main_arg3 (ix2 r g)
  refine congrArg (V m c main_arg3) (funext fun a => Fin.ext ?_)
  match a with
  | ⟨0, _⟩ => show win0_2.index t (0 : Fin 2) * 64 + 1 * r.val = r.val; omega
  | ⟨1, _⟩ => show win0_2.index t (1 : Fin 2) * 128 + 1 * g.val = g.val; omega

theorem b1_blk (c : Dev nD) (t : Fin cfg0.N) (g : Fin 128) :
    iblk m c 3 t (ix1 g) = V m c main_arg4 (ix1 g) := by
  obtain ⟨-, -, -, -, -, -, -, -, e0, -⟩ := idx_facts t
  show V m c main_arg4 (((cfg0.win 3).blk t).view.emb (ix1 g)) = V m c main_arg4 (ix1 g)
  refine congrArg (V m c main_arg4) (funext fun a => Fin.ext ?_)
  match a with
  | ⟨0, _⟩ => show win0_3.index t (0 : Fin 1) * 128 + 1 * g.val = g.val; omega

theorem w2_blk (c : Dev nD) (t : Fin cfg0.N) (g : Fin 128) (f : Fin 128) :
    iblk m c 4 t (ix2 g f) = V m c main_arg5 (ix2 g f) := by
  obtain ⟨-, -, -, -, -, -, -, -, -, e0, e1, -⟩ := idx_facts t
  show V m c main_arg5 (((cfg0.win 4).blk t).view.emb (ix2 g f)) = V m c main_arg5 (ix2 g f)
  refine congrArg (V m c main_arg5) (funext fun a => Fin.ext ?_)
  match a with
  | ⟨0, _⟩ => show win0_4.index t (0 : Fin 2) * 128 + 1 * g.val = g.val; omega
  | ⟨1, _⟩ => show win0_4.index t (1 : Fin 2) * 128 + 1 * f.val = f.val; omega

theorem b2_blk (c : Dev nD) (t : Fin cfg0.N) (f : Fin 128) :
    iblk m c 5 t (ix1 f) = V m c main_arg6 (ix1 f) := by
  obtain ⟨-, -, -, -, -, -, -, -, -, -, -, e0, -⟩ := idx_facts t
  show V m c main_arg6 (((cfg0.win 5).blk t).view.emb (ix1 f)) = V m c main_arg6 (ix1 f)
  refine congrArg (V m c main_arg6) (funext fun a => Fin.ext ?_)
  match a with
  | ⟨0, _⟩ => show win0_5.index t (0 : Fin 1) * 128 + 1 * f.val = f.val; omega

/-- Entry (p, q) of point `t`'s result block lies at row `200·t + p`, column `q` of the result array. -/
theorem out_emb (t : Fin cfg0.N) (p : Fin 200) (q : Fin 128) :
    ((cfg0.win 6).blk t).view.emb (ix2 p q) = ix2 (row t p) q := by
  obtain ⟨-, -, -, -, -, -, -, -, -, -, -, -, e0, e1⟩ := idx_facts t
  refine funext fun a => Fin.ext ?_
  match a with
  | ⟨0, _⟩ => show win0_6.index t (0 : Fin 2) * 200 + 1 * p.val = t.val * 200 + p.val; omega
  | ⟨1, _⟩ => show win0_6.index t (1 : Fin 2) * 128 + 1 * q.val = q.val; omega

/-! ## What a point writes back -/

/-- WHAT POINT `t` WRITES BACK is block `t` of the convolution of the arrays the region finds. -/
theorem flushed_eq (c : Dev nD) (t : Fin cfg0.N) :
    (dats m 0 c).flushed 6 t = ((cfg0.win 6).blk t).view.read (Elt Ideal) (result m c) := by
  rw [flushed6]
  unfold out0_6
  rw [View.canon_unit_zero hz2]
  simp only [View.ld_unit_zero (S := S200x32x64) hz3, View.ld_unit_zero (S := S64x128) hz2, View.ld_unit_zero (S := S128) hz1,
    View.ld_unit_zero (S := S128x128) hz2, View.ld_unit_zero (S := S200x32x128) hz3]
  funext y
  obtain ⟨p, q, rfl⟩ : ∃ (p : Fin 200) (q : Fin 128), y = ix2 p q := ⟨y 0, y 1, eq_ix2 y⟩
  show k0_pay1 (F := Ideal) (iblk m c 0 t) (iblk m c 2 t) (iblk m c 3 t) (iblk m c 4 t) (iblk m c 5 t) (iblk m c 1 t) (ix2 p q)
      = result m c (((cfg0.win 6).blk t).view.emb (ix2 p q))
  rw [out_emb t p q]
  refine (Block.pay_apply (iblk m c 0 t) (iblk m c 2 t) (iblk m c 3 t) (iblk m c 4 t) (iblk m c 5 t) (iblk m c 1 t) p q).trans ?_
  show convAt (A := 200) (iblk m c 1 t) (iblk m c 0 t) (iblk m c 2 t) (iblk m c 3 t) (iblk m c 4 t) (iblk m c 5 t) p q
      = convAt (A := 20000) (V m c main_v0) (V m c main_arg1) (V m c main_arg3) (V m c main_arg4) (V m c main_arg5) (V m c main_arg6) (row t p) q
  exact convAt_congr (iblk m c 1 t) (iblk m c 0 t) (iblk m c 2 t) (iblk m c 3 t) (iblk m c 4 t) (iblk m c 5 t)
    (V m c main_v0) (V m c main_arg1) (V m c main_arg3) (V m c main_arg4) (V m c main_arg5) (V m c main_arg6) p (row t p) q
    (fun n => xj_blk m c t p n q) (fun n r => rbf_blk m c t p n r) (fun r g => w1_blk m c t r g) (fun g => b1_blk m c t g)
    (fun g => w2_blk m c t g q) (b2_blk m c t q)

/-! ## The blocks tile the array -/

/-- An index of the result array is in point `t`'s block iff each coordinate is in the block's range. -/
theorem mem_blk (t : Fin cfg0.N) (i : S20000x128.Idx) :
    i ∈ ((cfg0.win 6).blk t).view.set ↔ ∀ a : Fin 2, win0_6.index t a * S200x128.size a ≤ (i a).val ∧ (i a).val < win0_6.index t a * S200x128.size a + S200x128.size a := by
  show i ∈ ((View.whole main_v1).slice (win0_6.rect t)).set ↔ _
  rw [View.set_slice_whole, Rect.mem_set_unit]
  exact Iff.rfl

/-- Row `r` of the result array is in the block of point `r / 200`. -/
theorem cover (i : S20000x128.Idx) : ∃ t : Fin cfg0.N, (cfg0.win 6).flush t = true ∧ i ∈ ((cfg0.win 6).blk t).view.set := by
  have hi0 : (i 0).val < 20000 := (i 0).isLt
  have hi1 : (i 1).val < 128 := (i 1).isLt
  have hN : cfg0.N = 100 := N_0
  let t : Fin cfg0.N := ⟨(i 0).val / 200, by rw [hN]; omega⟩
  have ht : t.val = (i 0).val / 200 := rfl
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 200 ≤ (i 0).val ∧ (i 0).val < win0_6.index t (0 : Fin 2) * 200 + 200; omega
  | ⟨1, _⟩ => show win0_6.index t (1 : Fin 2) * 128 ≤ (i 1).val ∧ (i 1).val < win0_6.index t (1 : Fin 2) * 128 + 128; omega

/-- THE RESULT ARRAY after the run is the convolution of the arrays the region finds. -/
theorem final (c : Dev nD) : (dats m 0 c).arrAt 6 cfg0.N = result m c :=
  (dats m 0 c).arrAt_eq_of_cover 6 (result m c) (fun t _ => flushed_eq m c t) cover

/-- The kernel's run, re-posted: the result buffer at the convolution, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.CfConv.Tiling

end
-- ==== Proof.Reference.lean ====
/-
  The reference is the convolution. Its program computes, over all 20000 atoms at once, the first linear map
  as a contraction over the 64 radial features plus a broadcast bias, softplus, the second linear map as a
  contraction over the 128 hidden features plus a broadcast bias, the product with the gathered neighbour rows,
  and the sum over the 32 slots from the zero word. Read one operation at a time at atom `a`, slot `n` and a
  feature, these are the specification's `hidden`, `filt` and `convAt`; the gathered rows stay an argument.
-/
import proofs.«407500_j87677462380692_1_alg».proof.Proof.Gen.ReferenceIdeal.Read
import proofs.«407500_j87677462380692_1_alg».proof.Proof.Spec

noncomputable section

open scoped BigOperators

namespace Cert.CfConv.Ref

open Idealize.ShloMosaic Idealize.ShloMosaic.ValueIdx Cert.ReferenceIdeal Cert.ReferenceIdeal.Read Cert.CfConv

/-! ## The index maps of the reference's operations, at coordinates -/

theorem lidx0 (a : Fin 20000) (n : Fin 32) (g : Fin 128) (r : Fin 64) : lidx_main_v0 (ix3 a n g) r = ix3 a n r :=
  funext fun d => Fin.ext (by match d with | ⟨0, _⟩ => rfl | ⟨1, _⟩ => rfl | ⟨2, _⟩ => rfl)
theorem ridx0 (a : Fin 20000) (n : Fin 32) (g : Fin 128) (r : Fin 64) : ridx_main_v0 (ix3 a n g) r = ix2 r g :=
  funext fun d => Fin.ext (by match d with | ⟨0, _⟩ => rfl | ⟨1, _⟩ => rfl)
theorem bidx1 (a : Fin 20000) (n : Fin 32) (g : Fin 128) : idx_main_v1 (idx_main_v2 (ix3 a n g)) = ix1 g :=
  funext fun d => Fin.ext (by match d with | ⟨0, _⟩ => rfl)
theorem lidx5 (a : Fin 20000) (n : Fin 32) (f : Fin 128) (g : Fin 128) : lidx_main_v5 (ix3 a n f) g = ix3 a n g :=
  funext fun d => Fin.ext (by match d with | ⟨0, _⟩ => rfl | ⟨1, _⟩ => rfl | ⟨2, _⟩ => rfl)
theorem ridx5 (a : Fin 20000) (n : Fin 32) (f : Fin 128) (g : Fin 128) : ridx_main_v5 (ix3 a n f) g = ix2 g f :=
  funext fun d => Fin.ext (by match d with | ⟨0, _⟩ => rfl | ⟨1, _⟩ => rfl)
theorem bidx6 (a : Fin 20000) (n : Fin 32) (f : Fin 128) : idx_main_v6 (idx_main_v7 (ix3 a n f)) = ix1 f :=
  funext fun d => Fin.ext (by match d with | ⟨0, _⟩ => rfl)
theorem sidx17 (a : Fin 20000) (f : Fin 128) (n : Fin 32) : idx_main_v17 (ix2 a f) n = ix3 a n f :=
  funext fun d => Fin.ext (by match d with | ⟨0, _⟩ => rfl | ⟨1, _⟩ => rfl | ⟨2, _⟩ => rfl)

/-! ## The stages -/

/-- The first linear map with its bias, at atom `a`, slot `n`, hidden feature `g`. -/
theorem lin1_ref (x1 : (⟨S20000x32x64, .f32⟩ : BufTy).Contents (Elt Ideal)) (x3 : (⟨S64x128, .f32⟩ : BufTy).Contents (Elt Ideal)) (x4 : (⟨S128, .f32⟩ : BufTy).Contents (Elt Ideal)) (a : Fin 20000) (n : Fin 32) (g : Fin 128) :
    val_main_v3 (F := Ideal) x1 x3 x4 (ix3 a n g) = ∑ r : Fin 64, x1 (ix3 a n r) * x3 (ix2 r g) + x4 (ix1 g) := by
  rw [val_main_v3_apply, val_main_v0_apply, val_main_v2_apply, val_main_v1_apply, bidx1]
  refine congrArg (· + x4 (ix1 g)) (Finset.sum_congr rfl fun r _ => ?_)
  rw [lidx0, ridx0]

/-- The hidden layer: the reference's `logaddexp`-form softplus is the specification's, entry by entry. -/
theorem hidden_ref (x1 : (⟨S20000x32x64, .f32⟩ : BufTy).Contents (Elt Ideal)) (x3 : (⟨S64x128, .f32⟩ : BufTy).Contents (Elt Ideal)) (x4 : (⟨S128, .f32⟩ : BufTy).Contents (Elt Ideal)) (a : Fin 20000) (n : Fin 32) (g : Fin 128) :
    val_main_v4 (F := Ideal) x1 x3 x4 (ix3 a n g) = hidden (A := 20000) x1 x3 x4 a n g := by
  rw [val_main_v4_apply, val_main_call0_v4_apply, val_main_call0_v6_apply, val_main_call0_v11_apply, val_main_call0_v1_apply,
    val_main_call0_v10_apply, val_main_call0_v9_apply, val_main_call0_v8_apply, val_main_call0_v7_apply, val_main_call0_v3_apply,
    val_main_call0_v0_apply, val_main_call0_v2_apply, val_main_call0_v5_apply, val_main_call0_cst_apply, lin1_ref]
  rfl

/-- The filter at atom `a`, slot `n`, feature `f`. -/
theorem filt_ref (x1 : (⟨S20000x32x64, .f32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (a : Fin 20000) (n : Fin 32) (f : Fin 128) :
    val_main_v8 (F := Ideal) x1 x3 x4 x5 x6 (ix3 a n f) = filt (A := 20000) x1 x3 x4 x5 x6 a n f := by
  rw [val_main_v8_apply, val_main_v5_apply, val_main_v7_apply, val_main_v6_apply, bidx6]
  unfold filt
  refine congrArg (· + x6 (ix1 f)) (Finset.sum_congr rfl fun g _ => ?_)
  rw [lidx5, ridx5, hidden_ref]

/-- THE REFERENCE'S RESULT is the convolution of the gathered neighbour rows and the other arguments. -/
theorem result_eq (x0 : (⟨S20000x128, .f32⟩ : BufTy).Contents (Elt Ideal)) (x1 : (⟨S20000x32x64, .f32⟩ : BufTy).Contents (Elt Ideal)) (x2 : (⟨S20000x32, .i32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v17 (F := Ideal) x0 x1 x2 x3 x4 x5 x6
      = conv (A := 20000) (val_main_v15 (F := Ideal) x0 x2) x1 x3 x4 x5 x6 := by
  funext j
  obtain ⟨a, f, rfl⟩ : ∃ (a : Fin 20000) (f : Fin 128), j = ix2 a f := ⟨j 0, j 1, eq_ix2 j⟩
  rw [val_main_v17_apply, val_main_cst_apply]
  show Ideal.ofBits .f32 0x00000000#32 + _ = convAt (A := 20000) (val_main_v15 (F := Ideal) x0 x2) x1 x3 x4 x5 x6 a f
  rw [Ideal.ofBits_zero_f32, zero_add]
  unfold convAt
  refine Finset.sum_congr rfl fun n _ => ?_
  rw [sidx17, val_main_v16_apply, filt_ref]
  rfl

end Cert.CfConv.Ref

end
-- ==== Proof.lean ====
/-
  The certificate of a continuous-filter convolution (CFConv message passing) over 20000 atoms with 32 neighbour
  slots each: for atom `a` and feature `f`,

      out[a, f] = ∑ n, x[nb[a, n], f] · (∑ g, softplus (∑ r, rbf[a, n, r] · w1[r, g] + b1[g]) · w2[g, f] + b2[f]).

  The kernel gathers the neighbour rows on the host and runs the filter network, the product and the slot sum in
  one region over 100 blocks of 200 atoms; the reference does the same with whole-array contractions. On the
  extended reals the two are one function (`Cert.CfConv.conv`, Proof/Spec.lean): a matrix product into a zero
  accumulator and a host contraction are the same sum, a lane reduction and a host reduction from zero are the
  same sum, a change of float format is the identity, and the two spellings of softplus agree (`0 - y = -y`).
  Neither side needs a law that fails at an infinity, so the finiteness of the float inputs is not used.

  The one place the programs differ is the gather: both count a negative index from the end and both gather with a
  clamped start, but the kernel's `take` then replaces a row whose wrapped index is outside [0, 19999] by a fill,
  where the reference keeps the clamped row. The precondition bounds every neighbour index to [-20000, 20000) —
  the range in which the reference's own indexing is in range — and there the wrapped index is in [0, 19999], the
  kernel's validity mask is set everywhere and the fill is never chosen (Proof/Neighbours.lean).

  Kernel side: one grid point's stored block is the convolution of its blocks (Proof/FilterBlock.lean), the blocks
  are rows 200·t … 200·t + 199 of their arrays and tile the result (Proof/Tiling.lean). Reference side: its run,
  read one operation at a time, is the convolution of the gathered rows (Proof/Reference.lean).
-/
import proofs.«407500_j87677462380692_1_alg».proof.Defs
import proofs.«407500_j87677462380692_1_alg».proof.Proof.Gen.Kernel
import proofs.«407500_j87677462380692_1_alg».proof.Proof.Gen.Kernel.Skeleton
import proofs.«407500_j87677462380692_1_alg».proof.Proof.Gen.Kernel.Launch
import proofs.«407500_j87677462380692_1_alg».proof.Proof.Gen.Kernel.Points
import proofs.«407500_j87677462380692_1_alg».proof.Proof.Gen.Kernel.Frame
import proofs.«407500_j87677462380692_1_alg».proof.Proof.Gen.KernelIdeal
import proofs.«407500_j87677462380692_1_alg».proof.Proof.Gen.KernelIdeal.Skeleton
import proofs.«407500_j87677462380692_1_alg».proof.Proof.Gen.KernelIdeal.Launch
import proofs.«407500_j87677462380692_1_alg».proof.Proof.Gen.KernelIdeal.Points
import proofs.«407500_j87677462380692_1_alg».proof.Proof.Gen.KernelIdeal.Frame
import proofs.«407500_j87677462380692_1_alg».proof.Proof.Gen.ReferenceIdeal
import proofs.«407500_j87677462380692_1_alg».proof.Proof.Gen.Pre_finite_inputs
import proofs.«407500_j87677462380692_1_alg».proof.Proof.Gen.KernelIdeal.Value
import proofs.«407500_j87677462380692_1_alg».proof.Proof.Gen.ReferenceIdeal.Run
import proofs.«407500_j87677462380692_1_alg».proof.Proof.Gen.ReferenceIdeal.Read
import proofs.«407500_j87677462380692_1_alg».proof.Proof.Spec
import proofs.«407500_j87677462380692_1_alg».proof.Proof.FilterBlock
import proofs.«407500_j87677462380692_1_alg».proof.Proof.Neighbours
import proofs.«407500_j87677462380692_1_alg».proof.Proof.Tiling
import proofs.«407500_j87677462380692_1_alg».proof.Proof.Reference
import Idealize.ShloMosaic.Adequacy
import Idealize.ShloMosaic.Init

noncomputable section

namespace Cert.Proof

open Idealize.ShloMosaic Idealize.ShloMosaic.TcCoe Idealize.SL.Sem

/-- The kernel's gathered rows and the reference's are one term: the same gather of `x` at the same wrapped
    indices. -/
theorem rows_eq (x : Cert.KernelIdeal.S20000x128.Idx → EReal) (nb : IVec Cert.KernelIdeal.S20000x32 32) :
    Cert.CfConv.Nbr.rows x nb = Cert.ReferenceIdeal.Read.val_main_v15 (F := Ideal) x nb := rfl

theorem frame_k : Cert.frame_Kernel := fun m ρ _ => Cert.Kernel.Gen.frame m ρ

theorem frame_ki : Cert.frame_KernelIdeal := fun m ρ _ => Cert.KernelIdeal.Gen.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result buffer at the convolution of the arguments: the kernel's of the rows its host
    prefix leaves, which under the precondition are the gathered rows; the reference's of the gathered rows. -/
theorem algebraic : Cert.algebraic_KernelIdeal_ReferenceIdeal := by
  intro m ρ m' ρ' hpre hagree
  refine ⟨fun c => Cert.CfConv.Tiling.result m c, Cert.CfConv.Tiling.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6, Cert.ReferenceIdeal.Read.val_main_v17_eq, Cert.CfConv.Ref.result_eq]
  obtain ⟨hlo, hhi⟩ := Cert.CfConv.Nbr.range_of_pre _ _ _ _ _ _ _ (hpre c)
  show _ = Cert.CfConv.Tiling.result m c
  unfold Cert.CfConv.Tiling.result
  rw [Cert.CfConv.Nbr.entry_rows, Cert.CfConv.Nbr.taken_eq_rows _ _ hlo hhi, rows_eq,
    Cert.KernelIdeal.Gen.V_main_arg1, Cert.KernelIdeal.Gen.V_main_arg3, Cert.KernelIdeal.Gen.V_main_arg4,
    Cert.KernelIdeal.Gen.V_main_arg5, Cert.KernelIdeal.Gen.V_main_arg6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
